-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x40 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S1x128 : Shape := ⟨2, ![1, 128]⟩
abbrev S50000x40 : Shape := ⟨2, ![50000, 40]⟩
abbrev S2000x40 : Shape := ⟨2, ![2000, 40]⟩
abbrev S1x40 : Shape := ⟨2, ![1, 40]⟩
abbrev S2000 : Shape := ⟨1, ![2000]⟩

abbrev nBuf : Space → Nat
  | .hbm => 53
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x40, .f32⟩
  | .local _ .vmem, ⟨18, _⟩ => ⟨S128x40, .f32⟩
  | .local _ .vmem, ⟨19, _⟩ => ⟨S40, .f32⟩
  | .local _ .vmem, ⟨20, _⟩ => ⟨S2000x40, .f32⟩
  | .local _ .vmem, ⟨21, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40.size a ≤ S40.size a
  hwx1_5 : ∀ i : grid1.Coords, EltTy.bits .f32 = 32 ∨ (Rect.block (s := S40) S40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x40.size a ≤ S50000x40.size a
  hwx1_6 : ∀ i : grid1.Coords, EltTy.bits .f32 = 32 ∨ (Rect.block (s := S50000x40) S2000x40.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x40, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x40, .f32⟩
  | .hbm, ⟨72, _⟩ => ⟨S50000x40, .f32⟩
  | .hbm, ⟨73, _⟩ => ⟨S50000x40, .f32⟩
  | .hbm, ⟨74, _⟩ => ⟨S1x40, .f32⟩
  | .hbm, ⟨75, _⟩ => ⟨S50000x40, .f32⟩
  | .hbm, ⟨76, _⟩ => ⟨S50000x40, .f32⟩
  | .hbm, ⟨77, _⟩ => ⟨S_, .f32⟩
  | .hbm, ⟨78, _⟩ => ⟨S50000x40, .f32⟩
  | .hbm, ⟨79, _⟩ => ⟨S50000x40, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S50000x1, .f32⟩
  | .hbm, ⟨93, _⟩ => ⟨S50000x40, .f32⟩
  | .hbm, ⟨94, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_call2_cst : Ref sig .tc := ⟨.hbm, 80, rfl⟩
abbrev main_call2_v0 : Ref sig .tc := ⟨.hbm, 81, rfl⟩
abbrev main_call2_cst_0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_v6 : Ref sig .tc := ⟨.hbm, 88, rfl⟩
abbrev main_call2_cst_1 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.GraphOps.lean ====
/-
  The graph side of the network, as functions of the edge list: the source and destination vectors (rows 0 and 1 of the
  2 × E edge array), the neighbour sum of a feature matrix (gather the source rows, negative indices wrapped once by
  the row count, and add them into the destination rows of a zero matrix), the neighbour count of every node (add ones
  into the destination entries of a zero vector) taken no smaller than one, and its reciprocal kept as a column. They
  are spelt with the host operations both programs print, so that either program's host stretch is one of them read off.
-/
import proofs.«170260_j24215025615234_1_alg».proof.Proof.Gen.KernelIdeal

noncomputable section

open Idealize.ShloMosaic

namespace Cert.KernelIdeal.Graph

open Cert.KernelIdeal Cert.KernelIdeal.Gen

variable {F : FTy → Type} [FloatOps F]

/-- The edges' source nodes: row 0 of the edge array, as a vector. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination nodes: row 1 of the edge array, as a vector. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The neighbour sums of a feature matrix: row d is the sum over the edges into d of the feature row of the edge's source. -/
def aggr (feat : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 feat
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour count of every node, taken no smaller than one. -/
def dmax (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- One over that count, as a column. -/
def recip (dst : (⟨S800000, .i32⟩ : BufTy).Contents (Elt F)) : (⟨S50000x1, .f32⟩ : BufTy).Contents (Elt F) :=
  shapeCast _ (Host.divf (broadcastInDim S50000 ![] bcast_S_S50000 (constant S_ .f32 0x3F800000#32)) (dmax dst)) shapeCasts_S50000_S50000x1

end Cert.KernelIdeal.Graph

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.LibLogSoftmaxRow.lean ====
/-
  The logarithm of a softmax along a row, over the extended reals, as one function of the row: every entry less the
  row's maximum, less the logarithm of the sum of the exponentials of the entries so shifted. The maximum is taken as a
  fold of max from the value of the f32 pattern of -∞ (which is ⊥, so the fold is the row's supremum).
-/
import Idealize.ShloMosaic.PureOps.Ideal
import Mathlib.Data.Finset.Fold

noncomputable section

open Idealize.ShloMosaic

namespace Cert.LibLogSoftmaxRow

/-- The f32 pattern of -∞ is the bottom extended real. -/
theorem ofBits_neg_inf : Ideal.ofBits .f32 0xFF800000#32 = (⊥ : EReal) := by simp [Ideal.ofBits, Ideal.ieee]

/-- A row's maximum: max folded over the row from the value of the pattern of -∞. -/
def rowMax {N : ℕ} (z : Fin N → EReal) : EReal :=
  (Finset.univ : Finset (Fin N)).fold max (Ideal.ofBits .f32 0xFF800000#32) z

/-- Taking the maximum with -∞ once more changes nothing. -/
theorem max_neg_inf_rowMax {N : ℕ} (z : Fin N → EReal) : max (Ideal.ofBits .f32 0xFF800000#32) (rowMax z) = rowMax z := by
  rw [ofBits_neg_inf]; exact max_eq_right bot_le

/-- Entry j of the logarithm of the softmax of the row z. -/
def logSoftmaxRow {N : ℕ} (z : Fin N → EReal) (j : Fin N) : EReal :=
  (z j - rowMax z) - Ideal.log (∑ c : Fin N, Ideal.exp (z c - rowMax z))

end Cert.LibLogSoftmaxRow

end
-- ==== Proof.LibScaledMeanLayer.lean ====
/-
  The mathematics of a two-layer graph network that averages over neighbours, over the extended reals.

  A layer takes, for every node n, the sum a(n, ·) of its neighbours' feature rows, the node's own row x(n, ·), and a
  scale s(n) (the reciprocal of the larger of its neighbour count and one); two weight matrices with one column per
  output feature; a bias. Entry (n, j) of its result is

      max ( ( ∑ₖ (a(n, k) · s(n)) · wl(k, j)  +  ∑ₖ x(n, k) · wr(k, j) )  +  b(j) ,  0 ).

  One program multiplies the sums by the reciprocal 1 / d kept as a column; the other divides the sums by d. For
  d ≠ 0 the quotient a / d is a · d⁻¹ and the reciprocal is 1 · d⁻¹, so the two are the same extended real whatever a
  is: no finiteness is used. The second layer is followed by the logarithm of a softmax along each row.

  Here: the entry and the whole layer; the matrix unit's form of a block of rows read at an entry; the host's form read
  at an entry; the law joining them; and both spellings of the row-wise logarithm of a softmax read at an entry.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.PureOps.Reduce
import proofs.«170260_j24215025615234_1_alg».proof.Proof.LibPlainMatmul
import proofs.«170260_j24215025615234_1_alg».proof.Proof.LibKeepdimsColumn
import proofs.«170260_j24215025615234_1_alg».proof.Proof.LibLogSoftmaxRow

noncomputable section

open Idealize.ShloMosaic Idealize.ShloMosaic.ValueIdx

namespace Cert.LibScaledMean

/-- The threshold of the activation: the value of the all-zero word. -/
abbrev z32 : EReal := Ideal.ofBits .f32 0x00000000#32

/-- One entry of a layer from the node's two rows, its scale, the output feature's two weight columns and its bias. -/
def entry {K : ℕ} (a x : Fin K → EReal) (s : EReal) (wl wr : Fin K → EReal) (b : EReal) : EReal :=
  max (((∑ k : Fin K, (a k * s) * wl k) + ∑ k : Fin K, x k * wr k) + b) z32

/-- A whole layer with the scale kept as a column: entry (n, j) from rows n of the two node matrices, the scale of node
    n, columns j of the two weight matrices and entry j of the bias. -/
def layer {N K D : ℕ} (a x : (⟨2, ![N, K]⟩ : Shape).Idx → EReal) (s : (⟨2, ![N, 1]⟩ : Shape).Idx → EReal)
    (wl wr : (⟨2, ![K, D]⟩ : Shape).Idx → EReal) (b : (⟨1, ![D]⟩ : Shape).Idx → EReal) : (⟨2, ![N, D]⟩ : Shape).Idx → EReal :=
  fun i => entry (fun k => a (ix2 (n0 := N) (i 0) k)) (fun k => x (ix2 (n0 := N) (i 0) k)) (s (ix2 (n0 := N) (i 0) (0 : Fin 1)))
    (fun k => wl (ix2 (n1 := D) k (i 1))) (fun k => wr (ix2 (n1 := D) k (i 1))) (b (ix1 (n := D) (i 1)))

theorem layer_ix2 {N K D : ℕ} (a x : (⟨2, ![N, K]⟩ : Shape).Idx → EReal) (s : (⟨2, ![N, 1]⟩ : Shape).Idx → EReal)
    (wl wr : (⟨2, ![K, D]⟩ : Shape).Idx → EReal) (b : (⟨1, ![D]⟩ : Shape).Idx → EReal) (n : Fin N) (j : Fin D) :
    layer a x s wl wr b (ix2 n j) = entry (fun k => a (ix2 n k)) (fun k => x (ix2 n k)) (s (ix2 n (0 : Fin 1)))
      (fun k => wl (ix2 k j)) (fun k => wr (ix2 k j)) (b (ix1 j)) := rfl

/-- Dividing by a nonzero d is multiplying by the reciprocal of d, on every extended real: both are a · d⁻¹. -/
theorem mul_recip (one a d : EReal) (h1 : one = 1) (hd : d ≠ 0) : a * Ideal.div one d = Ideal.div a d := by
  subst h1
  unfold Ideal.div
  rw [if_neg hd, if_neg hd, one_mul]

/-- The larger of anything and one is not zero. -/
theorem max_one_ne_zero (x one : EReal) (h1 : one = 1) : max x one ≠ 0 := by
  subst h1
  have h : (0 : EReal) < max x 1 := lt_of_lt_of_le zero_lt_one (le_max_right x 1)
  exact ne_of_gt h

/-- The matrix unit's layer on a block of M rows, at row e and output feature j: the sums scaled by the column s
    broadcast over the K lanes; that product and the node's own rows each multiplied into a zero accumulator (their
    narrowing to a shorter float format is the identity on the extended reals); the two products added; the bias, cast to
    a one-row matrix and broadcast over the rows, added last; the maximum with a splat zero. -/
theorem unit_layer_apply {M K N : ℕ} {ψ : FTy} (a x : FVec Ideal ⟨2, ![M, K]⟩ .f32) (s : FVec Ideal ⟨2, ![M, 1]⟩ .f32)
    (wl wr : FVec Ideal ⟨2, ![K, N]⟩ .f32) (b : FVec Ideal ⟨1, ![N]⟩ .f32) (hψ : ψ.bits < FTy.f32.bits)
    (hs : (⟨2, ![M, 1]⟩ : Shape).Broadcasts ⟨2, ![M, K]⟩) (hc : (⟨1, ![N]⟩ : Shape).ShapeCasts ⟨2, ![1, N]⟩)
    (hb : (⟨2, ![1, N]⟩ : Shape).Broadcasts ⟨2, ![M, N]⟩) (e : Fin M) (j : Fin N) :
    maximumf (addf (addf
        (matmul (DotDims.plain M K N) none (truncf ψ (mulf a (broadcastTo (⟨2, ![M, K]⟩ : Shape) s hs)) hψ) (truncf ψ wl hψ)
          (constant (⟨2, ![M, N]⟩ : Shape) .f32 0x00000000#32))
        (matmul (DotDims.plain M K N) none (truncf ψ x hψ) (truncf ψ wr hψ) (constant (⟨2, ![M, N]⟩ : Shape) .f32 0x00000000#32)))
        (broadcastTo (⟨2, ![M, N]⟩ : Shape) (shapeCast (⟨2, ![1, N]⟩ : Shape) b hc) hb))
        (broadcast (⟨2, ![M, N]⟩ : Shape) (Scalar.ofBits (F := Ideal) .f32 0x00000000#32)) (ix2 e j)
      = entry (fun k => a (ix2 e k)) (fun k => x (ix2 e k)) (s (ix2 e (0 : Fin 1)))
          (fun k => wl (ix2 k j)) (fun k => wr (ix2 k j)) (b (ix1 j)) := by
  unfold entry
  rw [maximumf_apply, addf_apply, addf_apply, broadcast_apply, broadcastTo_1b_ab_apply, shapeCast_a_1a_apply,
    Cert.LibPlainMatmul.matmul_plain_apply, Cert.LibPlainMatmul.matmul_plain_apply]
  have scaled : ∀ k : Fin K, truncf ψ (mulf a (broadcastTo (⟨2, ![M, K]⟩ : Shape) s hs)) hψ (ix2 e k) = a (ix2 e k) * s (ix2 e (0 : Fin 1)) :=
    fun k => by rw [truncf_apply, mulf_apply, Cert.KeepdimsColumn.broadcastTo_a1_ab_apply]
  simp only [scaled, truncf_apply]
  rfl

/-- The host's layer at row e and output feature j: the sums divided by the count column d broadcast to a matrix; the
    two products; their sum; the bias broadcast from a vector to one row and then over the rows; the maximum with a
    splat of the zero word. The quotient is the product with the reciprocal where d is not zero. -/
theorem host_layer_apply {M K N : ℕ} (a x : FVec Ideal ⟨2, ![M, K]⟩ .f32) (d : FVec Ideal ⟨1, ![M]⟩ .f32)
    (wl wr : FVec Ideal ⟨2, ![K, N]⟩ .f32) (b : FVec Ideal ⟨1, ![N]⟩ .f32) (one : EReal) (h1 : one = 1)
    (hd₁ : (⟨1, ![M]⟩ : Shape).BroadcastsInDim ⟨2, ![M, 1]⟩ ![0])
    (hd₂ : (⟨2, ![M, 1]⟩ : Shape).BroadcastsInDim ⟨2, ![M, K]⟩ ![0, 1])
    (hb₁ : (⟨1, ![N]⟩ : Shape).BroadcastsInDim ⟨2, ![1, N]⟩ ![1])
    (hb₂ : (⟨2, ![1, N]⟩ : Shape).BroadcastsInDim ⟨2, ![M, N]⟩ ![0, 1])
    (h₀ : (⟨0, ![]⟩ : Shape).BroadcastsInDim ⟨2, ![M, N]⟩ ![]) (hne : ∀ n : Fin M, d (ix1 n) ≠ 0) (e : Fin M) (j : Fin N) :
    maximumf (addf (addf
        (Host.dotGeneral (DotDims.plain M K N) none
          (Host.divf a (broadcastInDim (⟨2, ![M, K]⟩ : Shape) ![0, 1] hd₂ (broadcastInDim (⟨2, ![M, 1]⟩ : Shape) ![0] hd₁ d))) wl)
        (Host.dotGeneral (DotDims.plain M K N) none x wr))
        (broadcastInDim (⟨2, ![M, N]⟩ : Shape) ![0, 1] hb₂ (broadcastInDim (⟨2, ![1, N]⟩ : Shape) ![1] hb₁ b)))
        (broadcastInDim (⟨2, ![M, N]⟩ : Shape) ![] h₀ (constant (F := Ideal) (⟨0, ![]⟩ : Shape) .f32 0x00000000#32)) (ix2 e j)
      = entry (fun k => a (ix2 e k)) (fun k => x (ix2 e k)) (Ideal.div one (d (ix1 e)))
          (fun k => wl (ix2 k j)) (fun k => wr (ix2 k j)) (b (ix1 j)) := by
  unfold entry
  rw [maximumf_apply, addf_apply, addf_apply, Cert.LibPlainMatmul.dotGeneral_plain_apply,
    Cert.LibPlainMatmul.dotGeneral_plain_apply]
  -- the bias: a vector laid out as one row, the row repeated over the M rows
  have bias : broadcastInDim (⟨2, ![M, N]⟩ : Shape) ![0, 1] hb₂ (broadcastInDim (⟨2, ![1, N]⟩ : Shape) ![1] hb₁ b) (ix2 e j)
      = b (ix1 j) := by
    have hj := j.isLt
    have col : j.val = if N = 1 then 0 else j.val := by split_ifs <;> omega
    have inner : broadcastInDim (⟨2, ![1, N]⟩ : Shape) ![1] hb₁ b (ix2 (0 : Fin 1) j) = b (ix1 j) := by
      refine broadcastInDim_apply ![1] hb₁ b _ (ix1 j) fun ax => ?_
      match ax with
      | ⟨0, _⟩ => exact col
    rw [← inner]
    refine broadcastInDim_apply ![0, 1] hb₂ _ (ix2 e j) (ix2 (0 : Fin 1) j) fun ax => ?_
    match ax with
    | ⟨0, _⟩ => rfl
    | ⟨1, _⟩ => exact col
  -- the threshold: a rank-0 constant read through a broadcast with no source axes
  have thr : broadcastInDim (⟨2, ![M, N]⟩ : Shape) ![] h₀ (constant (F := Ideal) (⟨0, ![]⟩ : Shape) .f32 0x00000000#32) (ix2 e j)
      = z32 := by
    rw [broadcastInDim_apply ![] h₀ _ (ix2 e j) ix0 (fun ax => ax.elim0), constant_apply]
  -- the count: a vector laid out as a column, the column repeated over the K lanes
  have cnt : ∀ k : Fin K, broadcastInDim (⟨2, ![M, K]⟩ : Shape) ![0, 1] hd₂ (broadcastInDim (⟨2, ![M, 1]⟩ : Shape) ![0] hd₁ d) (ix2 e k)
      = d (ix1 e) := fun k => by
    have he := e.isLt
    have row : e.val = if M = 1 then 0 else e.val := by split_ifs <;> omega
    have inner : broadcastInDim (⟨2, ![M, 1]⟩ : Shape) ![0] hd₁ d (ix2 e (0 : Fin 1)) = d (ix1 e) := by
      refine broadcastInDim_apply ![0] hd₁ d _ (ix1 e) fun ax => ?_
      match ax with
      | ⟨0, _⟩ => exact row
    rw [← inner]
    refine broadcastInDim_apply ![0, 1] hd₂ _ (ix2 e k) (ix2 e (0 : Fin 1)) fun ax => ?_
    match ax with
    | ⟨0, _⟩ => exact row
    | ⟨1, _⟩ => rfl
  have quot : ∀ k : Fin K,
      Host.divf a (broadcastInDim (⟨2, ![M, K]⟩ : Shape) ![0, 1] hd₂ (broadcastInDim (⟨2, ![M, 1]⟩ : Shape) ![0] hd₁ d)) (ix2 e k)
        = a (ix2 e k) * Ideal.div one (d (ix1 e)) := fun k => by
    show Ideal.div (a (ix2 e k)) _ = _
    rw [cnt k, mul_recip one _ _ h1 (hne e)]
  simp only [quot]
  rw [bias, thr]

end Cert.LibScaledMean

end
-- ==== Proof.NetSpec.lean ====
/-
  The whole network as one function of its eight arguments, over the extended reals: the first layer of the features and
  their neighbour sums, the second layer of the first layer's output and its neighbour sums, the row-wise logarithm of
  the softmax. Both layers scale the sums by the reciprocal of the neighbour count taken no smaller than one; that count
  is never zero, which is all the law joining "times the reciprocal" and "divided by" needs.
-/
import proofs.«170260_j24215025615234_1_alg».proof.Proof.GraphOps
import proofs.«170260_j24215025615234_1_alg».proof.Proof.LibScaledMeanLayer
import proofs.«170260_j24215025615234_1_alg».proof.Proof.LibLogSoftmaxRow
import proofs.«170260_j24215025615234_1_alg».proof.Proof.LibKeepdimsColumn
import Idealize.ShloMosaic.Lib.IdealHost

set_option maxRecDepth 16384

noncomputable section

open Idealize.ShloMosaic Idealize.ShloMosaic.ValueIdx

namespace Cert.NetSpec

open Cert.KernelIdeal Cert.KernelIdeal.Gen Cert.KernelIdeal.Graph Cert.LibLogSoftmaxRow

/-- The first layer's output. -/
def hidden (x : FVec Ideal S50000x128 .f32) (ei : IVec S2x800000 32) (w2 w3 : FVec Ideal S128x128 .f32) (b4 : FVec Ideal S128 .f32) :
    S50000x128.Idx → EReal :=
  Cert.LibScaledMean.layer (N := 50000) (K := 128) (D := 128) (aggr (F := Ideal) x (srcOf (F := Ideal) ei) (dstOf (F := Ideal) ei)) x (recip (F := Ideal) (dstOf (F := Ideal) ei)) w2 w3 b4

/-- The second layer's output, before the logarithm of the softmax. -/
def logits (x : FVec Ideal S50000x128 .f32) (ei : IVec S2x800000 32) (w2 w3 : FVec Ideal S128x128 .f32) (b4 : FVec Ideal S128 .f32)
    (w5 w6 : FVec Ideal S128x40 .f32) (b7 : FVec Ideal S40 .f32) : S50000x40.Idx → EReal :=
  Cert.LibScaledMean.layer (N := 50000) (K := 128) (D := 40) (aggr (F := Ideal) (hidden x ei w2 w3 b4) (srcOf (F := Ideal) ei) (dstOf (F := Ideal) ei)) (hidden x ei w2 w3 b4)
    (recip (F := Ideal) (dstOf (F := Ideal) ei)) w5 w6 b7

/-- The network's result: every row of the second layer's output through the logarithm of the softmax. -/
def net (x : FVec Ideal S50000x128 .f32) (ei : IVec S2x800000 32) (w2 w3 : FVec Ideal S128x128 .f32) (b4 : FVec Ideal S128 .f32)
    (w5 w6 : FVec Ideal S128x40 .f32) (b7 : FVec Ideal S40 .f32) : S50000x40.Idx → EReal :=
  fun i => logSoftmaxRow (fun c' : Fin 40 => logits x ei w2 w3 b4 w5 w6 b7 (ix2 (i 0) c')) (i 1)

/-- The count of node n, taken no smaller than one, is not zero. -/
theorem dmax_ne_zero (dst : IVec S800000 32) (n : Fin 50000) : dmax (F := Ideal) dst (ix1 n) ≠ 0 := by
  unfold dmax
  rw [maximumf_apply, broadcastInDim_apply ![] bcast_S_S50000 _ (ix1 n) ix0 (fun ax => ax.elim0), constant_apply]
  exact Cert.LibScaledMean.max_one_ne_zero _ _ Ideal.ofBits_one_f32

/-- The reciprocal column at node n is one over that count. -/
theorem recip_apply (dst : IVec S800000 32) (n : Fin 50000) :
    recip (F := Ideal) dst (ix2 n (0 : Fin 1)) = Ideal.div (Ideal.ofBits .f32 0x3F800000#32) (dmax (F := Ideal) dst (ix1 n)) := by
  unfold recip
  rw [Cert.KeepdimsColumn.shapeCast_a_a1_apply]
  have hdiv : ∀ (a b : FVec Ideal S50000 .f32) (i : S50000.Idx), Host.divf a b i = Ideal.div (a i) (b i) := fun _ _ _ => rfl
  rw [hdiv, broadcastInDim_apply ![] bcast_S_S50000 _ (ix1 n) ix0 (fun ax => ax.elim0), constant_apply]

end Cert.NetSpec

end
-- ==== Proof.Layer1Region.lean ====
/-
  The first layer's region of the idealized kernel program, read as a value: after its 25 grid points the result
  array holds the layer of LibScaledMeanLayer.lean, entry by entry, of the arrays the region found at entry.

  Grid point t works on rows 2000·t … 2000·t + 1999: its blocks of the neighbour sums, of the reciprocal-count column
  and of the node features are those rows; the two weight matrices and the bias are whole at every point. The body's one
  store is the layer on that block of rows; the 25 blocks of 2000 rows tile the 50000 rows.
-/
import proofs.«170260_j24215025615234_1_alg».proof.Proof.Gen.KernelIdeal.Frame
import proofs.«170260_j24215025615234_1_alg».proof.Proof.LibScaledMeanLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

/-- Two reads of one array at indices with equal coordinates are one read. -/
theorem read_congr {S : Shape} {α : Type} (X : S.Idx → α) {i i' : S.Idx} (h : ∀ a, (i a).val = (i' a).val) : X i = X i' :=
  congrArg X (funext fun a => Fin.ext (h a))

/-- The entry formed from a point's blocks is the layer's entry at the array index the block entry sits at, once every
    block read is the array's read at that row or column. -/
theorem entry_of_blocks {N K D M : ℕ} (A X : (⟨2, ![N, K]⟩ : Shape).Idx → EReal) (Sc : (⟨2, ![N, 1]⟩ : Shape).Idx → EReal)
    (WL WR : (⟨2, ![K, D]⟩ : Shape).Idx → EReal) (B : (⟨1, ![D]⟩ : Shape).Idx → EReal)
    (x0 x2 : (⟨2, ![M, K]⟩ : Shape).Idx → EReal) (x1 : (⟨2, ![M, 1]⟩ : Shape).Idx → EReal)
    (x3 x4 : (⟨2, ![K, D]⟩ : Shape).Idx → EReal) (x5 : (⟨1, ![D]⟩ : Shape).Idx → EReal)
    (j : (⟨2, ![M, D]⟩ : Shape).Idx) (i : (⟨2, ![N, D]⟩ : Shape).Idx)
    (h0 : ∀ k : Fin K, x0 (ix2 (j 0) k) = A (ix2 (i 0) k)) (h2 : ∀ k : Fin K, x2 (ix2 (j 0) k) = X (ix2 (i 0) k))
    (h1 : x1 (ix2 (j 0) (0 : Fin 1)) = Sc (ix2 (i 0) (0 : Fin 1)))
    (h3 : ∀ k : Fin K, x3 (ix2 k (j 1)) = WL (ix2 k (i 1))) (h4 : ∀ k : Fin K, x4 (ix2 k (j 1)) = WR (ix2 k (i 1)))
    (h5 : x5 (ix1 (j 1)) = B (ix1 (i 1))) :
    Cert.LibScaledMean.entry (fun k : Fin K => x0 (ix2 (j 0) k)) (fun k : Fin K => x2 (ix2 (j 0) k)) (x1 (ix2 (j 0) (0 : Fin 1)))
        (fun k : Fin K => x3 (ix2 k (j 1))) (fun k : Fin K => x4 (ix2 k (j 1))) (x5 (ix1 (j 1)))
      = Cert.LibScaledMean.layer A X Sc WL WR B i := by
  unfold Cert.LibScaledMean.layer
  simp only [h0, h2, h1, h3, h4, h5]

theorem hz2 : (![0, 0] : Fin 2 → Nat) = fun _ => 0 := funext fun a => by fin_cases a <;> rfl
theorem hz1 : (![0] : Fin 1 → Nat) = fun _ => 0 := funext fun a => by fin_cases a <;> rfl

/-- The body's stored value at row e and column q of its block: the layer's entry of the block's rows. -/
theorem pay_apply (x0 : Vec Ideal S2000x128 .f32) (x1 : Vec Ideal S2000x1 .f32) (x2 : Vec Ideal S2000x128 .f32)
    (x3 x4 : Vec Ideal S128x128 .f32) (x5 : Vec Ideal S128 .f32) (j : S2000x128.Idx) :
    k0_pay1 x0 x1 x2 x3 x4 x5 j
      = Cert.LibScaledMean.entry (fun k : Fin 128 => x0 (ix2 (j 0) k)) (fun k : Fin 128 => x2 (ix2 (j 0) k)) (x1 (ix2 (j 0) (0 : Fin 1)))
          (fun k : Fin 128 => x3 (ix2 k (j 1))) (fun k : Fin 128 => x4 (ix2 k (j 1))) (x5 (ix1 (j 1))) := by
  obtain ⟨e, q, rfl⟩ : ∃ (e : Fin 2000) (q : Fin 128), j = ix2 e q := ⟨j 0, j 1, eq_ix2 j⟩
  unfold k0_pay1
  simp only [shapeCast_self]
  exact Cert.LibScaledMean.unit_layer_apply (M := 2000) (K := 128) (N := 128) x0 x2 x1 x3 x4 x5 bitsLt_bf16_f32 _ _ _ e q

/-- The printed index maps over the grid: the three row-blocked inputs and the output sit at block row t, the weights
    and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What the result array holds after the region, of the arrays found at entry. -/
abbrev G (c : Dev nD) : S50000x128.Idx → EReal :=
  Cert.LibScaledMean.layer (N := 50000) (K := 128) (D := 128) (V c main_v22) (V c main_arg0) (V c main_v12) (V c main_arg2) (V c main_arg3) (V c main_arg4)

/-- What point t writes back is block t of G. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2, View.ld_unit_zero (S := S128x128) hz2,
    View.ld_unit_zero (S := S128) hz1]
  obtain ⟨a0, a1, b0, b1, c0, c1, d0, d1, e0, e1, f0, g0, g1⟩ := idx_facts t
  funext j
  show k0_pay1 (iblk0 V c 0 t) (iblk0 V c 1 t) (iblk0 V c 2 t) (iblk0 V c 3 t) (iblk0 V c 4 t) (iblk0 V c 5 t) j
    = G V c (((cfg0.win 6).blk t).view.emb j)
  refine (pay_apply (iblk0 V c 0 t) (iblk0 V c 1 t) (iblk0 V c 2 t) (iblk0 V c 3 t) (iblk0 V c 4 t) (iblk0 V c 5 t) j).trans ?_
  refine entry_of_blocks (V c main_v22) (V c main_arg0) (V c main_v12) (V c main_arg2) (V c main_arg3) (V c main_arg4)
    (iblk0 V c 0 t) (iblk0 V c 2 t) (iblk0 V c 1 t) (iblk0 V c 3 t) (iblk0 V c 4 t) (iblk0 V c 5 t) j
    (((cfg0.win 6).blk t).view.emb j) ?_ ?_ ?_ ?_ ?_ ?_
  · intro k
    show V c main_v22 (((cfg0.win 0).blk t).view.emb (ix2 (j 0) k)) = _
    refine read_congr (S := S50000x128) (V c main_v22) fun a => ?_
    match a with
    | ⟨0, _⟩ => show win0_0.index t (0 : Fin 2) * 2000 + 1 * (j 0).val = win0_6.index t (0 : Fin 2) * 2000 + 1 * (j 0).val; rw [a0, g0]
    | ⟨1, _⟩ => show win0_0.index t (1 : Fin 2) * 128 + 1 * k.val = k.val; rw [a1]; omega
  · intro k
    show V c main_arg0 (((cfg0.win 2).blk t).view.emb (ix2 (j 0) k)) = _
    refine read_congr (S := S50000x128) (V c main_arg0) fun a => ?_
    match a with
    | ⟨0, _⟩ => show win0_2.index t (0 : Fin 2) * 2000 + 1 * (j 0).val = win0_6.index t (0 : Fin 2) * 2000 + 1 * (j 0).val; rw [c0, g0]
    | ⟨1, _⟩ => show win0_2.index t (1 : Fin 2) * 128 + 1 * k.val = k.val; rw [c1]; omega
  · show V c main_v12 (((cfg0.win 1).blk t).view.emb (ix2 (j 0) (0 : Fin 1))) = _
    refine read_congr (S := S50000x1) (V c main_v12) fun a => ?_
    match a with
    | ⟨0, _⟩ => show win0_1.index t (0 : Fin 2) * 2000 + 1 * (j 0).val = win0_6.index t (0 : Fin 2) * 2000 + 1 * (j 0).val; rw [b0, g0]
    | ⟨1, _⟩ => show win0_1.index t (1 : Fin 2) * 1 + 1 * 0 = 0; rw [b1]
  · intro k
    show V c main_arg2 (((cfg0.win 3).blk t).view.emb (ix2 k (j 1))) = _
    refine read_congr (S := S128x128) (V c main_arg2) fun a => ?_
    match a with
    | ⟨0, _⟩ => show win0_3.index t (0 : Fin 2) * 128 + 1 * k.val = k.val; rw [d0]; omega
    | ⟨1, _⟩ => show win0_3.index t (1 : Fin 2) * 128 + 1 * (j 1).val = win0_6.index t (1 : Fin 2) * 128 + 1 * (j 1).val; rw [d1, g1]
  · intro k
    show V c main_arg3 (((cfg0.win 4).blk t).view.emb (ix2 k (j 1))) = _
    refine read_congr (S := S128x128) (V c main_arg3) fun a => ?_
    match a with
    | ⟨0, _⟩ => show win0_4.index t (0 : Fin 2) * 128 + 1 * k.val = k.val; rw [e0]; omega
    | ⟨1, _⟩ => show win0_4.index t (1 : Fin 2) * 128 + 1 * (j 1).val = win0_6.index t (1 : Fin 2) * 128 + 1 * (j 1).val; rw [e1, g1]
  · show V c main_arg4 (((cfg0.win 5).blk t).view.emb (ix1 (j 1))) = _
    refine read_congr (S := S128) (V c main_arg4) fun a => ?_
    match a with
    | ⟨0, _⟩ => show win0_5.index t (0 : Fin 1) * 128 + 1 * (j 1).val = win0_6.index t (1 : Fin 2) * 128 + 1 * (j 1).val; rw [f0, g1]

/-- An index of the result array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v23).slice (win0_6.rect t)).set ↔ _
  rw [View.set_slice_whole, Rect.mem_set_unit]
  exact Iff.rfl

/-- The result array after the region: the layer of the arrays found at entry. The 25 blocks of 2000 rows cover it:
    row r lies in the block of point r / 2000. -/
theorem final (c : Dev nD) : (dat0 V c).arrAt 6 cfg0.N = G V c :=
  (dat0 V c).arrAt_eq_of_cover 6 (G V c) (fun t _ => flushed_eq V c t) fun i => by
    have hi0 : (i 0).val < 50000 := (i 0).isLt
    have hi1 : (i 1).val < 128 := (i 1).isLt
    have hlt : (i 0).val / 2000 < cfg0.N := by show _ < grid0.N; rw [N_0]; omega
    obtain ⟨-, -, -, -, -, -, -, -, -, -, -, g0, g1⟩ := idx_facts ⟨(i 0).val / 2000, hlt⟩
    refine ⟨⟨(i 0).val / 2000, hlt⟩, flush0_6 _, ?_⟩
    rw [mem_blk]
    intro a
    match a with
    | ⟨0, _⟩ =>
      show win0_6.index ⟨(i 0).val / 2000, hlt⟩ (0 : Fin 2) * 2000 ≤ (i 0).val ∧ (i 0).val < win0_6.index ⟨(i 0).val / 2000, hlt⟩ (0 : Fin 2) * 2000 + 2000
      rw [g0]; show (i 0).val / 2000 * 2000 ≤ (i 0).val ∧ (i 0).val < (i 0).val / 2000 * 2000 + 2000; omega
    | ⟨1, _⟩ =>
      show win0_6.index ⟨(i 0).val / 2000, hlt⟩ (1 : Fin 2) * 128 ≤ (i 1).val ∧ (i 1).val < win0_6.index ⟨(i 0).val / 2000, hlt⟩ (1 : Fin 2) * 128 + 128
      rw [g1]; omega

end Cert.KernelIdeal.Layer1

end
-- ==== Proof.LibLogSoftmaxForms.lean ====
/-
  The logarithm of a softmax along the rows of a matrix, in the two spellings a matrix unit and a host program give it,
  each read at one entry over the extended reals. Both are: the entry less its row's maximum, less the logarithm of the sum
  over the row of the exponentials of the entries so shifted.

  The matrix unit takes the row maximum as a lane reduction from -∞, keeps it as a column, broadcasts it over the lanes,
  subtracts, exponentiates, sums the lanes from zero, takes the logarithm of that column and subtracts its broadcast.
  The host reduces with a maximum body from -∞, takes the maximum with -∞ once more (which changes nothing), broadcasts
  through a column, and sums with an initial value of zero.
-/
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce
import proofs.«170260_j24215025615234_1_alg».proof.Proof.LibKeepdimsColumn
import proofs.«170260_j24215025615234_1_alg».proof.Proof.LibLogSoftmaxRow

noncomputable section

open Idealize.ShloMosaic Idealize.ShloMosaic.ValueIdx

namespace Cert.LibLogSoftmaxForms

open Cert.LibLogSoftmaxRow

/-- Over a matrix reduced along its lanes, the source index over row p with lane k put back is (p, k). -/
theorem lift_lane {M N : ℕ} (h : (⟨2, ![M, N]⟩ : Shape).Reduces [1] ⟨1, ![M]⟩) (p : Fin M) (k : Fin N) :
    h.lift (ix1 p) k = ix2 p k :=
  funext fun c => Fin.ext (by
    match c with
    | ⟨0, _⟩ => rfl
    | ⟨1, _⟩ => rfl)

/-- The lane maximum of a matrix, read at row p: the fold of max over that row from the accumulator's value. -/
theorem laneMax_apply {M N : ℕ} (src : FVec Ideal ⟨2, ![M, N]⟩ .f32) (acc : BitVec FTy.f32.bits)
    (h : (⟨2, ![M, N]⟩ : Shape).Reduces [1] ⟨1, ![M]⟩) (hφ : FKind.Formats .f32) (hacc : acc = FKind.maximumf.neutral .f32 hφ)
    (p : Fin M) :
    multiReduction .maximumf [1] ⟨1, ![M]⟩ src acc h hφ hacc (ix1 p)
      = (Finset.univ : Finset (Fin N)).fold max (Ideal.ofBits .f32 acc) (fun k => src (ix2 p k)) := by
  refine (Ideal.multiReduction_maximumf_single src acc h hφ hacc (ix1 p)).trans ?_
  exact congrArg (fun g => (Finset.univ : Finset (Fin N)).fold max (Ideal.ofBits .f32 acc) g)
    (funext fun k => congrArg src (lift_lane h p k))

/-- A vector laid out as a column and the column repeated over N lanes reads at (e, j) the vector at e. -/
theorem colsOfVec_apply {M N : ℕ} {α : Type} (v : (⟨1, ![M]⟩ : Shape).Idx → α)
    (h₁ : (⟨1, ![M]⟩ : Shape).BroadcastsInDim ⟨2, ![M, 1]⟩ ![0])
    (h₂ : (⟨2, ![M, 1]⟩ : Shape).BroadcastsInDim ⟨2, ![M, N]⟩ ![0, 1]) (e : Fin M) (j : Fin N) :
    broadcastInDim (⟨2, ![M, N]⟩ : Shape) ![0, 1] h₂ (broadcastInDim (⟨2, ![M, 1]⟩ : Shape) ![0] h₁ v) (ix2 e j) = v (ix1 e) := by
  have he := e.isLt
  have row : e.val = if M = 1 then 0 else e.val := by split_ifs <;> omega
  have inner : broadcastInDim (⟨2, ![M, 1]⟩ : Shape) ![0] h₁ v (ix2 e (0 : Fin 1)) = v (ix1 e) := by
    refine broadcastInDim_apply ![0] h₁ v _ (ix1 e) fun ax => ?_
    match ax with
    | ⟨0, _⟩ => exact row
  rw [← inner]
  refine broadcastInDim_apply ![0, 1] h₂ _ (ix2 e j) (ix2 e (0 : Fin 1)) fun ax => ?_
  match ax with
  | ⟨0, _⟩ => exact row
  | ⟨1, _⟩ => rfl

/-- The matrix unit's spelling, at row e and column j. -/
theorem unit_logSoftmax_apply {M N : ℕ} (z : FVec Ideal ⟨2, ![M, N]⟩ .f32)
    (hr : (⟨2, ![M, N]⟩ : Shape).Reduces [1] ⟨1, ![M]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (e : Fin M) (j : Fin N) :
    subf (subf z (broadcastTo (⟨2, ![M, N]⟩ : Shape)
        (shapeCast (⟨2, ![M, 1]⟩ : Shape) (multiReduction .maximumf [1] ⟨1, ![M]⟩ z 0xFF800000#32 hr hφ hmax) hc) hb))
      (broadcastTo (⟨2, ![M, N]⟩ : Shape) (log (shapeCast (⟨2, ![M, 1]⟩ : Shape)
        (multiReduction .add [1] ⟨1, ![M]⟩ (exp (subf z (broadcastTo (⟨2, ![M, N]⟩ : Shape)
          (shapeCast (⟨2, ![M, 1]⟩ : Shape) (multiReduction .maximumf [1] ⟨1, ![M]⟩ z 0xFF800000#32 hr hφ hmax) hc) hb)))
          0x00000000#32 hr hφ hadd) hc)) hb) (ix2 e j)
      = logSoftmaxRow (fun c => z (ix2 e c)) j := by
  -- the row maximum, kept as a column and broadcast, read at any lane of row e
  have mx : ∀ k : Fin N, broadcastTo (⟨2, ![M, N]⟩ : Shape)
      (shapeCast (⟨2, ![M, 1]⟩ : Shape) (multiReduction .maximumf [1] ⟨1, ![M]⟩ z 0xFF800000#32 hr hφ hmax) hc) hb (ix2 e k)
        = rowMax (fun c => z (ix2 e c)) := fun k => by
    rw [Cert.KeepdimsColumn.broadcastTo_a1_ab_apply, Cert.KeepdimsColumn.shapeCast_a_a1_apply, laneMax_apply]
    rfl
  unfold logSoftmaxRow
  rw [subf_apply, subf_apply, mx j, Cert.KeepdimsColumn.broadcastTo_a1_ab_apply]
  show _ - Ideal.log (shapeCast (⟨2, ![M, 1]⟩ : Shape) _ hc (ix2 e (0 : Fin 1))) = _
  rw [Cert.KeepdimsColumn.shapeCast_a_a1_apply, Cert.KeepdimsColumn.laneSum_apply]
  refine congrArg (fun s => _ - Ideal.log s) (Finset.sum_congr rfl fun k _ => ?_)
  show Ideal.exp (subf z _ (ix2 e k)) = _
  rw [subf_apply, mx k]

/-- The host's spelling, at row e and column j. -/
theorem host_logSoftmax_apply {M N : ℕ} (z : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h₀ : (⟨0, ![]⟩ : Shape).BroadcastsInDim ⟨1, ![M]⟩ ![])
    (h₁ : (⟨1, ![M]⟩ : Shape).BroadcastsInDim ⟨2, ![M, 1]⟩ ![0])
    (h₂ : (⟨2, ![M, 1]⟩ : Shape).BroadcastsInDim ⟨2, ![M, N]⟩ ![0, 1]) (e : Fin M) (j : Fin N) :
    subf (subf z (broadcastInDim (⟨2, ![M, N]⟩ : Shape) ![0, 1] h₂ (broadcastInDim (⟨2, ![M, 1]⟩ : Shape) ![0] h₁
        (maximumf (broadcastInDim (⟨1, ![M]⟩ : Shape) ![] h₀ (constant (F := Ideal) (⟨0, ![]⟩ : Shape) .f32 0xFF800000#32))
          (Host.reduce FloatOps.maximumf z (constant (F := Ideal) (⟨0, ![]⟩ : Shape) .f32 0xFF800000#32) hr' hu)))))
      (broadcastInDim (⟨2, ![M, N]⟩ : Shape) ![0, 1] h₂ (Host.log (broadcastInDim (⟨2, ![M, 1]⟩ : Shape) ![0] h₁
        (Host.reduceAdd (Host.exp (subf z (broadcastInDim (⟨2, ![M, N]⟩ : Shape) ![0, 1] h₂ (broadcastInDim (⟨2, ![M, 1]⟩ : Shape) ![0] h₁
          (maximumf (broadcastInDim (⟨1, ![M]⟩ : Shape) ![] h₀ (constant (F := Ideal) (⟨0, ![]⟩ : Shape) .f32 0xFF800000#32))
            (Host.reduce FloatOps.maximumf z (constant (F := Ideal) (⟨0, ![]⟩ : Shape) .f32 0xFF800000#32) hr' hu))))))
          (constant (F := Ideal) (⟨0, ![]⟩ : Shape) .f32 0x00000000#32) hr' hu)))) (ix2 e j)
      = logSoftmaxRow (fun c => z (ix2 e c)) j := by
  -- the row maximum: the fold from -∞, then the maximum with -∞ once more, through a column, at any lane of row e
  have mx : ∀ k : Fin N, broadcastInDim (⟨2, ![M, N]⟩ : Shape) ![0, 1] h₂ (broadcastInDim (⟨2, ![M, 1]⟩ : Shape) ![0] h₁
        (maximumf (broadcastInDim (⟨1, ![M]⟩ : Shape) ![] h₀ (constant (F := Ideal) (⟨0, ![]⟩ : Shape) .f32 0xFF800000#32))
          (Host.reduce FloatOps.maximumf z (constant (F := Ideal) (⟨0, ![]⟩ : Shape) .f32 0xFF800000#32) hr' hu))) (ix2 e k)
        = rowMax (fun c => z (ix2 e c)) := fun k => by
    rw [colsOfVec_apply, maximumf_apply, broadcastInDim_apply ![] h₀ _ (ix1 e) ix0 (fun ax => ax.elim0), constant_apply,
      Host.reduce_eq_fold_single FloatOps.maximumf z _ hr' hr hu (ix1 e), constant_apply]
    have e1 : (z ∘ hr.lift (ix1 e)) = fun c : Fin N => z (ix2 e c) := funext fun c => congrArg z (lift_lane hr e c)
    rw [e1]
    exact max_neg_inf_rowMax _
  unfold logSoftmaxRow
  rw [subf_apply, subf_apply, mx j]
  -- the logarithm of the row's sum, through a column
  have hl : ∀ (v : FVec Ideal ⟨1, ![M]⟩ .f32),
      broadcastInDim (⟨2, ![M, N]⟩ : Shape) ![0, 1] h₂ (Host.log (broadcastInDim (⟨2, ![M, 1]⟩ : Shape) ![0] h₁ v)) (ix2 e j)
        = Ideal.log (v (ix1 e)) := fun v => by
    have he := e.isLt
    have row : e.val = if M = 1 then 0 else e.val := by split_ifs <;> omega
    have outer : broadcastInDim (⟨2, ![M, N]⟩ : Shape) ![0, 1] h₂ (Host.log (broadcastInDim (⟨2, ![M, 1]⟩ : Shape) ![0] h₁ v)) (ix2 e j)
        = Host.log (broadcastInDim (⟨2, ![M, 1]⟩ : Shape) ![0] h₁ v) (ix2 e (0 : Fin 1)) := by
      refine broadcastInDim_apply ![0, 1] h₂ _ (ix2 e j) (ix2 e (0 : Fin 1)) fun ax => ?_
      match ax with
      | ⟨0, _⟩ => exact row
      | ⟨1, _⟩ => rfl
    rw [outer]
    show Ideal.log (broadcastInDim (⟨2, ![M, 1]⟩ : Shape) ![0] h₁ v (ix2 e (0 : Fin 1))) = _
    refine congrArg Ideal.log (broadcastInDim_apply ![0] h₁ v _ (ix1 e) fun ax => ?_)
    match ax with
    | ⟨0, _⟩ => exact row
  rw [hl]
  simp only [Host.reduceAdd, Ideal.hostReduceAdd_def]
  rw [Ideal.hostReduceAdd_single hr' hr, constant_apply, Ideal.ofBits_zero_f32, zero_add]
  refine congrArg (fun s => _ - Ideal.log s) (Finset.sum_congr rfl fun k _ => ?_)
  rw [lift_lane hr e k]
  show Ideal.exp (subf z _ (ix2 e k)) = _
  rw [subf_apply, mx k]

end Cert.LibLogSoftmaxForms

end
-- ==== Proof.Layer2Region.lean ====
/-
  The second layer's region of the idealized kernel program, read as a value: after its 25 grid points the result
  array holds, row by row, the logarithm of the softmax of the layer of LibScaledMeanLayer.lean (40 output features) of the
  arrays the region found at entry.

  Grid point t works on rows 2000·t … 2000·t + 1999, as in the first layer's region; the row-wise logarithm of the softmax
  needs only the block's own rows, so the 25 blocks tile the result.
-/
import proofs.«170260_j24215025615234_1_alg».proof.Proof.Gen.KernelIdeal.Frame
import proofs.«170260_j24215025615234_1_alg».proof.Proof.LibScaledMeanLayer
import proofs.«170260_j24215025615234_1_alg».proof.Proof.LibLogSoftmaxForms
import proofs.«170260_j24215025615234_1_alg».proof.Proof.Layer1Region
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen Cert.KernelIdeal.Layer1 Cert.LibLogSoftmaxRow

variable (V : (c : Dev nD) → (b : Ref sig .tc) → Buf (Elt Ideal) ((c : Thread nD τ).loc b))

/-- The body's stored value at row e and column q of its block: entry q of the logarithm of the softmax of row e of the
    layer on the block's rows. -/
theorem pay_apply (x0 : Vec Ideal S2000x128 .f32) (x1 : Vec Ideal S2000x1 .f32) (x2 : Vec Ideal S2000x128 .f32)
    (x3 x4 : Vec Ideal S128x40 .f32) (x5 : Vec Ideal S40 .f32) (j : S2000x40.Idx) :
    k1_pay1 x0 x1 x2 x3 x4 x5 j
      = logSoftmaxRow (fun c' : Fin 40 => Cert.LibScaledMean.entry (fun k : Fin 128 => x0 (ix2 (j 0) k)) (fun k : Fin 128 => x2 (ix2 (j 0) k))
          (x1 (ix2 (j 0) (0 : Fin 1))) (fun k : Fin 128 => x3 (ix2 k c')) (fun k : Fin 128 => x4 (ix2 k c')) (x5 (ix1 c'))) (j 1) := by
  obtain ⟨e, q, rfl⟩ : ∃ (e : Fin 2000) (q : Fin 40), j = ix2 e q := ⟨j 0, j 1, eq_ix2 j⟩
  unfold k1_pay1
  simp only [shapeCast_self]
  refine (Cert.LibLogSoftmaxForms.unit_logSoftmax_apply (M := 2000) (N := 40) _ reduces_S2000x40_S2000 (.inl rfl) rfl rfl _ _ e q).trans ?_
  exact congrArg (fun r => logSoftmaxRow r q) (funext fun c' =>
    Cert.LibScaledMean.unit_layer_apply (M := 2000) (K := 128) (N := 40) x0 x2 x1 x3 x4 x5 bitsLt_bf16_f32 _ _ _ e c')

/-- The printed index maps over the grid: the three row-blocked inputs and the output sit at block row t, the weights
    and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The layer of the arrays found at entry, before the logarithm of the softmax. -/
abbrev Z (c : Dev nD) : S50000x40.Idx → EReal :=
  Cert.LibScaledMean.layer (N := 50000) (K := 128) (D := 40) (V c main_v33) (V c main_v23) (V c main_v12) (V c main_arg5) (V c main_arg6) (V c main_arg7)

/-- What the result array holds after the region, of the arrays found at entry. -/
abbrev G (c : Dev nD) : S50000x40.Idx → EReal :=
  fun i => logSoftmaxRow (fun c' : Fin 40 => Z V c (ix2 (i 0) c')) (i 1)

/-- What point t writes back is block t of G. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S2000x1) hz2, View.ld_unit_zero (S := S128x40) hz2,
    View.ld_unit_zero (S := S40) hz1]
  obtain ⟨a0, a1, b0, b1, c0, c1, d0, d1, e0, e1, f0, g0, g1⟩ := idx_facts t
  funext j
  show k1_pay1 (iblk1 V c 0 t) (iblk1 V c 1 t) (iblk1 V c 2 t) (iblk1 V c 3 t) (iblk1 V c 4 t) (iblk1 V c 5 t) j
    = G V c (((cfg1.win 6).blk t).view.emb j)
  refine (pay_apply (iblk1 V c 0 t) (iblk1 V c 1 t) (iblk1 V c 2 t) (iblk1 V c 3 t) (iblk1 V c 4 t) (iblk1 V c 5 t) j).trans ?_
  have hcol : ((((cfg1.win 6).blk t).view.emb j) 1).val = (j 1).val := by
    show win1_6.index t (1 : Fin 2) * 40 + 1 * (j 1).val = (j 1).val; rw [g1]; omega
  have hrow : ∀ c' : Fin 40,
      Cert.LibScaledMean.entry (fun k : Fin 128 => iblk1 V c 0 t (ix2 (j 0) k)) (fun k : Fin 128 => iblk1 V c 2 t (ix2 (j 0) k))
          (iblk1 V c 1 t (ix2 (j 0) (0 : Fin 1))) (fun k : Fin 128 => iblk1 V c 3 t (ix2 k c')) (fun k : Fin 128 => iblk1 V c 4 t (ix2 k c'))
          (iblk1 V c 5 t (ix1 c'))
        = Z V c (ix2 ((((cfg1.win 6).blk t).view.emb j) 0) c') := fun c' => by
    refine entry_of_blocks (M := 2000) (V c main_v33) (V c main_v23) (V c main_v12) (V c main_arg5) (V c main_arg6) (V c main_arg7)
      (iblk1 V c 0 t) (iblk1 V c 2 t) (iblk1 V c 1 t) (iblk1 V c 3 t) (iblk1 V c 4 t) (iblk1 V c 5 t) (ix2 (j 0) c')
      (ix2 ((((cfg1.win 6).blk t).view.emb j) 0) c') ?_ ?_ ?_ ?_ ?_ ?_
    · intro k
      show V c main_v33 (((cfg1.win 0).blk t).view.emb (ix2 (j 0) k)) = _
      refine read_congr (S := S50000x128) (V c main_v33) fun a => ?_
      match a with
      | ⟨0, _⟩ => show win1_0.index t (0 : Fin 2) * 2000 + 1 * (j 0).val = win1_6.index t (0 : Fin 2) * 2000 + 1 * (j 0).val; rw [a0, g0]
      | ⟨1, _⟩ => show win1_0.index t (1 : Fin 2) * 128 + 1 * k.val = k.val; rw [a1]; omega
    · intro k
      show V c main_v23 (((cfg1.win 2).blk t).view.emb (ix2 (j 0) k)) = _
      refine read_congr (S := S50000x128) (V c main_v23) fun a => ?_
      match a with
      | ⟨0, _⟩ => show win1_2.index t (0 : Fin 2) * 2000 + 1 * (j 0).val = win1_6.index t (0 : Fin 2) * 2000 + 1 * (j 0).val; rw [c0, g0]
      | ⟨1, _⟩ => show win1_2.index t (1 : Fin 2) * 128 + 1 * k.val = k.val; rw [c1]; omega
    · show V c main_v12 (((cfg1.win 1).blk t).view.emb (ix2 (j 0) (0 : Fin 1))) = _
      refine read_congr (S := S50000x1) (V c main_v12) fun a => ?_
      match a with
      | ⟨0, _⟩ => show win1_1.index t (0 : Fin 2) * 2000 + 1 * (j 0).val = win1_6.index t (0 : Fin 2) * 2000 + 1 * (j 0).val; rw [b0, g0]
      | ⟨1, _⟩ => show win1_1.index t (1 : Fin 2) * 1 + 1 * 0 = 0; rw [b1]
    · intro k
      show V c main_arg5 (((cfg1.win 3).blk t).view.emb (ix2 k c')) = _
      refine read_congr (S := S128x40) (V c main_arg5) fun a => ?_
      match a with
      | ⟨0, _⟩ => show win1_3.index t (0 : Fin 2) * 128 + 1 * k.val = k.val; rw [d0]; omega
      | ⟨1, _⟩ => show win1_3.index t (1 : Fin 2) * 40 + 1 * c'.val = c'.val; rw [d1]; omega
    · intro k
      show V c main_arg6 (((cfg1.win 4).blk t).view.emb (ix2 k c')) = _
      refine read_congr (S := S128x40) (V c main_arg6) fun a => ?_
      match a with
      | ⟨0, _⟩ => show win1_4.index t (0 : Fin 2) * 128 + 1 * k.val = k.val; rw [e0]; omega
      | ⟨1, _⟩ => show win1_4.index t (1 : Fin 2) * 40 + 1 * c'.val = c'.val; rw [e1]; omega
    · show V c main_arg7 (((cfg1.win 5).blk t).view.emb (ix1 c')) = _
      refine read_congr (S := S40) (V c main_arg7) fun a => ?_
      match a with
      | ⟨0, _⟩ => show win1_5.index t (0 : Fin 1) * 40 + 1 * c'.val = c'.val; rw [f0]; omega
  show logSoftmaxRow _ (j 1) = logSoftmaxRow _ ((((cfg1.win 6).blk t).view.emb j) 1)
  rw [funext hrow]
  exact congrArg (logSoftmaxRow _) (Fin.ext hcol.symm)

/-- An index of the result array is in point t's block iff each coordinate is in the block's range on its axis. -/
theorem mem_blk (t : Fin cfg1.N) (i : S50000x40.Idx) :
    i ∈ ((cfg1.win 6).blk t).view.set ↔ ∀ a : Fin 2, win1_6.index t a * S2000x40.size a ≤ (i a).val ∧ (i a).val < win1_6.index t a * S2000x40.size a + S2000x40.size a := by
  show i ∈ ((View.whole main_v34).slice (win1_6.rect t)).set ↔ _
  rw [View.set_slice_whole, Rect.mem_set_unit]
  exact Iff.rfl

/-- The result array after the region. The 25 blocks of 2000 rows cover it: row r lies in the block of point r / 2000. -/
theorem final (c : Dev nD) : (dat1 V c).arrAt 6 cfg1.N = G V c :=
  (dat1 V c).arrAt_eq_of_cover 6 (G V c) (fun t _ => flushed_eq V c t) fun i => by
    have hi0 : (i 0).val < 50000 := (i 0).isLt
    have hi1 : (i 1).val < 40 := (i 1).isLt
    have hlt : (i 0).val / 2000 < cfg1.N := by show _ < grid1.N; rw [N_1]; omega
    obtain ⟨-, -, -, -, -, -, -, -, -, -, -, g0, g1⟩ := idx_facts ⟨(i 0).val / 2000, hlt⟩
    refine ⟨⟨(i 0).val / 2000, hlt⟩, flush1_6 _, ?_⟩
    rw [mem_blk]
    intro a
    match a with
    | ⟨0, _⟩ =>
      show win1_6.index ⟨(i 0).val / 2000, hlt⟩ (0 : Fin 2) * 2000 ≤ (i 0).val ∧ (i 0).val < win1_6.index ⟨(i 0).val / 2000, hlt⟩ (0 : Fin 2) * 2000 + 2000
      rw [g0]; show (i 0).val / 2000 * 2000 ≤ (i 0).val ∧ (i 0).val < (i 0).val / 2000 * 2000 + 2000; omega
    | ⟨1, _⟩ =>
      show win1_6.index ⟨(i 0).val / 2000, hlt⟩ (1 : Fin 2) * 40 ≤ (i 1).val ∧ (i 1).val < win1_6.index ⟨(i 0).val / 2000, hlt⟩ (1 : Fin 2) * 40 + 40
      rw [g1]; omega

end Cert.KernelIdeal.Layer2

end
-- ==== Proof.KernelValue.lean ====
/-
  The idealized kernel program's result as one function of its arguments: the host stretch before the first region
  computes the edge vectors, the reciprocal-count column and the neighbour sums of the features; the first region the
  first layer; the stretch between the regions the neighbour sums of the first layer's output; the second region the
  second layer followed by the row-wise logarithm of the softmax.
-/
import proofs.«170260_j24215025615234_1_alg».proof.Proof.Gen.KernelIdeal.Frame
import proofs.«170260_j24215025615234_1_alg».proof.Proof.KernelRun
import proofs.«170260_j24215025615234_1_alg».proof.Proof.GraphOps
import proofs.«170260_j24215025615234_1_alg».proof.Proof.NetSpec
import proofs.«170260_j24215025615234_1_alg».proof.Proof.Layer1Region
import proofs.«170260_j24215025615234_1_alg».proof.Proof.Layer2Region
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Net

open Cert.KernelIdeal Cert.KernelIdeal.Gen Cert.KernelIdeal.Graph Cert.LibLogSoftmaxRow

variable (m : (ℓ : Loc nD τ sig) → Buf (Elt Ideal) ℓ) (ρ : Dev nD → PrngReg)

/-! ## What the first region finds -/

theorem V1_v1 (c : Dev nD) : V1 m ρ c main_v1 = srcOf (F := Ideal) (m ((c.tc : Thread nD τ).loc main_arg1)) := by
  show StableHlo.after hostOps0 (W0 m ρ c) (Proc.devRef .tc main_v1) = _
  after_results; rfl
theorem V1_v3 (c : Dev nD) : V1 m ρ c main_v3 = dstOf (F := Ideal) (m ((c.tc : Thread nD τ).loc main_arg1)) := by
  show StableHlo.after hostOps0 (W0 m ρ c) (Proc.devRef .tc main_v3) = _
  after_results; rfl
theorem V1_v12 (c : Dev nD) : V1 m ρ c main_v12 = recip (F := Ideal) (dstOf (F := Ideal) (m ((c.tc : Thread nD τ).loc main_arg1))) := by
  show StableHlo.after hostOps0 (W0 m ρ c) (Proc.devRef .tc main_v12) = _
  after_results; rfl
set_option maxHeartbeats 4000000 in
theorem V1_v22 (c : Dev nD) : V1 m ρ c main_v22
    = aggr (F := Ideal) (m ((c.tc : Thread nD τ).loc main_arg0)) (srcOf (F := Ideal) (m ((c.tc : Thread nD τ).loc main_arg1))) (dstOf (F := Ideal) (m ((c.tc : Thread nD τ).loc main_arg1))) := by
  show StableHlo.after hostOps0 (W0 m ρ c) (Proc.devRef .tc main_v22) = _
  after_results_simp <;> rfl
theorem V1_arg0 (c : Dev nD) : V1 m ρ c main_arg0 = m ((c.tc : Thread nD τ).loc main_arg0) := by
  show StableHlo.after hostOps0 (W0 m ρ c) (Proc.devRef .tc main_arg0) = _
  after_results
theorem V1_arg2 (c : Dev nD) : V1 m ρ c main_arg2 = m ((c.tc : Thread nD τ).loc main_arg2) := by
  show StableHlo.after hostOps0 (W0 m ρ c) (Proc.devRef .tc main_arg2) = _
  after_results
theorem V1_arg3 (c : Dev nD) : V1 m ρ c main_arg3 = m ((c.tc : Thread nD τ).loc main_arg3) := by
  show StableHlo.after hostOps0 (W0 m ρ c) (Proc.devRef .tc main_arg3) = _
  after_results
theorem V1_arg4 (c : Dev nD) : V1 m ρ c main_arg4 = m ((c.tc : Thread nD τ).loc main_arg4) := by
  show StableHlo.after hostOps0 (W0 m ρ c) (Proc.devRef .tc main_arg4) = _
  after_results
theorem V1_arg5 (c : Dev nD) : V1 m ρ c main_arg5 = m ((c.tc : Thread nD τ).loc main_arg5) := by
  show StableHlo.after hostOps0 (W0 m ρ c) (Proc.devRef .tc main_arg5) = _
  after_results
theorem V1_arg6 (c : Dev nD) : V1 m ρ c main_arg6 = m ((c.tc : Thread nD τ).loc main_arg6) := by
  show StableHlo.after hostOps0 (W0 m ρ c) (Proc.devRef .tc main_arg6) = _
  after_results
theorem V1_arg7 (c : Dev nD) : V1 m ρ c main_arg7 = m ((c.tc : Thread nD τ).loc main_arg7) := by
  show StableHlo.after hostOps0 (W0 m ρ c) (Proc.devRef .tc main_arg7) = _
  after_results

/-- The first layer's output, of the arguments. -/
abbrev hidden (c : Dev nD) : S50000x128.Idx → EReal :=
  Cert.NetSpec.hidden (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-! ## What the first region leaves -/

theorem V2_v23 (c : Dev nD) : V2 m ρ c main_v23 = hidden m c := by
  show W2 m ρ c (Proc.devRef .tc (Pipeline.arrRef spec0 6)) = _
  rw [W2_arr m ρ c 6, Cert.KernelIdeal.Layer1.final (V1 m ρ) c]
  unfold Cert.KernelIdeal.Layer1.G
  rw [V1_v22 m ρ c, V1_arg0 m ρ c, V1_v12 m ρ c, V1_arg2 m ρ c, V1_arg3 m ρ c, V1_arg4 m ρ c]
  rfl

theorem V2_v1 (c : Dev nD) : V2 m ρ c main_v1 = srcOf (F := Ideal) (m ((c.tc : Thread nD τ).loc main_arg1)) :=
  (W2_of_ne m ρ c main_v1 (by decide)).trans (V1_v1 m ρ c)
theorem V2_v3 (c : Dev nD) : V2 m ρ c main_v3 = dstOf (F := Ideal) (m ((c.tc : Thread nD τ).loc main_arg1)) :=
  (W2_of_ne m ρ c main_v3 (by decide)).trans (V1_v3 m ρ c)
theorem V2_v12 (c : Dev nD) : V2 m ρ c main_v12 = recip (F := Ideal) (dstOf (F := Ideal) (m ((c.tc : Thread nD τ).loc main_arg1))) :=
  (W2_arr m ρ c 1).trans (((dat0 (V1 m ρ) c).arrAt_in 1 rfl _).trans ((A_eq0 (V1 m ρ) c 1).trans (V1_v12 m ρ c)))
theorem V2_arg5 (c : Dev nD) : V2 m ρ c main_arg5 = m ((c.tc : Thread nD τ).loc main_arg5) :=
  (W2_of_ne m ρ c main_arg5 (by decide)).trans (V1_arg5 m ρ c)
theorem V2_arg6 (c : Dev nD) : V2 m ρ c main_arg6 = m ((c.tc : Thread nD τ).loc main_arg6) :=
  (W2_of_ne m ρ c main_arg6 (by decide)).trans (V1_arg6 m ρ c)
theorem V2_arg7 (c : Dev nD) : V2 m ρ c main_arg7 = m ((c.tc : Thread nD τ).loc main_arg7) :=
  (W2_of_ne m ρ c main_arg7 (by decide)).trans (V1_arg7 m ρ c)

/-! ## What the second region finds -/

theorem V3_v33 (c : Dev nD) : V3 m ρ c main_v33 = aggr (F := Ideal) (V2 m ρ c main_v23) (V2 m ρ c main_v1) (V2 m ρ c main_v3) := by
  show StableHlo.after hostOps1 (W2 m ρ c) (Proc.devRef .tc main_v33) = _
  after_results; rfl
theorem V3_v23 (c : Dev nD) : V3 m ρ c main_v23 = V2 m ρ c main_v23 := by
  show StableHlo.after hostOps1 (W2 m ρ c) (Proc.devRef .tc main_v23) = _
  after_results
theorem V3_v12 (c : Dev nD) : V3 m ρ c main_v12 = V2 m ρ c main_v12 := by
  show StableHlo.after hostOps1 (W2 m ρ c) (Proc.devRef .tc main_v12) = _
  after_results
theorem V3_arg5 (c : Dev nD) : V3 m ρ c main_arg5 = V2 m ρ c main_arg5 := by
  show StableHlo.after hostOps1 (W2 m ρ c) (Proc.devRef .tc main_arg5) = _
  after_results
theorem V3_arg6 (c : Dev nD) : V3 m ρ c main_arg6 = V2 m ρ c main_arg6 := by
  show StableHlo.after hostOps1 (W2 m ρ c) (Proc.devRef .tc main_arg6) = _
  after_results
theorem V3_arg7 (c : Dev nD) : V3 m ρ c main_arg7 = V2 m ρ c main_arg7 := by
  show StableHlo.after hostOps1 (W2 m ρ c) (Proc.devRef .tc main_arg7) = _
  after_results

/-- The program's result, of the arguments. -/
abbrev result (c : Dev nD) : S50000x40.Idx → EReal :=
  Cert.NetSpec.net (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-! ## What the second region leaves: the result -/

theorem W4_v34 (c : Dev nD) : W4 m ρ c (Proc.devRef .tc main_v34) = result m c := by
  show W4 m ρ c (Proc.devRef .tc (Pipeline.arrRef spec1 6)) = _
  rw [W4_arr m ρ c 6, Cert.KernelIdeal.Layer2.final (V3 m ρ) c]
  unfold Cert.KernelIdeal.Layer2.G Cert.KernelIdeal.Layer2.Z
  rw [V3_v33 m ρ c, V3_v23 m ρ c, V3_v12 m ρ c, V3_arg5 m ρ c, V3_arg6 m ρ c, V3_arg7 m ρ c,
    V2_v23 m ρ c, V2_v1 m ρ c, V2_v3 m ρ c, V2_v12 m ρ c, V2_arg5 m ρ c, V2_arg6 m ρ c, V2_arg7 m ρ c]
  rfl

/-- The run of the idealized kernel program, read: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W4_v34 m ρ c), (h c).2⟩) (Cert.KernelIdeal.GenRun.run_result m ρ)

end Cert.KernelIdeal.Net

end
-- ==== Proof.RefGraphOps.lean ====
/-
  The reference program's own spelling of the graph side (its shape records and facts), as functions of the edge
  vectors, and that each is the function of GraphOps.lean: the two programs print the same host operations.
-/
import proofs.«170260_j24215025615234_1_alg».proof.Proof.Gen.ReferenceIdeal
import proofs.«170260_j24215025615234_1_alg».proof.Proof.GraphOps

noncomputable section

open Idealize.ShloMosaic

namespace Cert.ReferenceIdeal.Graph

open Cert.ReferenceIdeal Cert.ReferenceIdeal.Gen

variable {F : FTy → Type} [FloatOps F]

def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

def aggr (feat : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 feat
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

def dmax (dst : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

theorem srcOf_eq (ei : (⟨S2x800000, .i32⟩ : BufTy).Contents (Elt F)) : srcOf (F := F) ei = Cert.KernelIdeal.Graph.srcOf (F := F) ei := rfl
theorem dstOf_eq (ei : (⟨S2x800000, .i32⟩ : BufTy).Contents (Elt F)) : dstOf (F := F) ei = Cert.KernelIdeal.Graph.dstOf (F := F) ei := rfl
theorem aggr_eq (feat : (⟨S50000x128, .f32⟩ : BufTy).Contents (Elt F)) (src dst : (⟨S800000, .i32⟩ : BufTy).Contents (Elt F)) :
    aggr (F := F) feat src dst = Cert.KernelIdeal.Graph.aggr (F := F) feat src dst := rfl
theorem dmax_eq (dst : (⟨S800000, .i32⟩ : BufTy).Contents (Elt F)) : dmax (F := F) dst = Cert.KernelIdeal.Graph.dmax (F := F) dst := rfl

end Cert.ReferenceIdeal.Graph

end
-- ==== Proof.RefValue.lean ====
/-
  The idealized reference program's result as the network of NetSpec.lean of its arguments. Its 87 host operations are
  read in three stretches. The first leaves the edge vectors and the first layer: the neighbour sums divided by the
  count column, the two products, the bias, the maximum with zero. The second leaves the second layer, of the first
  layer's output and its neighbour sums. The third is the logarithm of the softmax along the rows. Each layer, entry by
  entry, is the layer of LibScaledMeanLayer.lean with the sums scaled by the reciprocal of the count, because the count is not zero.
-/
import proofs.«170260_j24215025615234_1_alg».proof.Proof.RefRunP
import proofs.«170260_j24215025615234_1_alg».proof.Proof.NetSpec
import proofs.«170260_j24215025615234_1_alg».proof.Proof.RefGraphOps
import proofs.«170260_j24215025615234_1_alg».proof.Proof.LibLogSoftmaxForms
import Idealize.ShloMosaic.Lib.Pipeline.Frame

set_option maxRecDepth 16384

noncomputable section

open Idealize.ShloMosaic Idealize.ShloMosaic.TcCoe Idealize.SL.Sem Idealize.ShloMosaic.ValueIdx Idealize.ShloMosaic.StableHlo

namespace Cert.ReferenceIdeal.Net

open Cert.ReferenceIdeal Cert.ReferenceIdeal.Gen Cert.ReferenceIdeal.ValueP Cert.LibLogSoftmaxRow

/-! ## The host's spelling of a layer and of the closing function, as whole-array terms -/

section Spellings
variable {F : FTy → Type} [FloatOps F]

/-- The first layer as the host prints it. -/
def hostLayer128 (a x : FVec F S50000x128 .f32) (d : FVec F S50000 .f32) (wl wr : FVec F S128x128 .f32) (b : FVec F S128 .f32) :
    FVec F S50000x128 .f32 :=
  maximumf (addf (addf
      (Host.dotGeneral dot_S50000x128_S128x128_S50000x128_1_0_0_1_n_n none
        (Host.divf a (broadcastInDim S50000x128 ![0, 1] bcast_S50000x1_S50000x128_0_1 (broadcastInDim S50000x1 ![0] bcast_S50000_S50000x1_0 d))) wl)
      (Host.dotGeneral dot_S50000x128_S128x128_S50000x128_1_0_0_1_n_n none x wr))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer as the host prints it. -/
def hostLayer40 (a x : FVec F S50000x128 .f32) (d : FVec F S50000 .f32) (wl wr : FVec F S128x40 .f32) (b : FVec F S40 .f32) :
    FVec F S50000x40 .f32 :=
  maximumf (addf (addf
      (Host.dotGeneral dot_S50000x128_S128x40_S50000x40_1_0_0_1_n_n none
        (Host.divf a (broadcastInDim S50000x128 ![0, 1] bcast_S50000x1_S50000x128_0_1 (broadcastInDim S50000x1 ![0] bcast_S50000_S50000x1_0 d))) wl)
      (Host.dotGeneral dot_S50000x128_S128x40_S50000x40_1_0_0_1_n_n none x wr))
      (broadcastInDim S50000x40 ![0, 1] bcast_S1x40_S50000x40_0_1 (broadcastInDim S1x40 ![1] bcast_S40_S1x40_1 b)))
    (broadcastInDim S50000x40 ![] bcast_S_S50000x40 (constant S_ .f32 0x00000000#32))

/-- The logarithm of the softmax along the rows as the host prints it. -/
def hostLogSoftmax (z : FVec F S50000x40 .f32) : FVec F S50000x40 .f32 :=
  subf (subf z (broadcastInDim S50000x40 ![0, 1] bcast_S50000x1_S50000x40_0_1 (broadcastInDim S50000x1 ![0] bcast_S50000_S50000x1_0
      (maximumf (broadcastInDim S50000 ![] bcast_S_S50000 (constant S_ .f32 0xFF800000#32))
        (Host.reduce FloatOps.maximumf z (constant S_ .f32 0xFF800000#32) reducesTo_S50000x40_S50000_d1 h_S_)))))
    (broadcastInDim S50000x40 ![0, 1] bcast_S50000x1_S50000x40_0_1 (Host.log (broadcastInDim S50000x1 ![0] bcast_S50000_S50000x1_0
      (Host.reduceAdd (Host.exp (subf z (broadcastInDim S50000x40 ![0, 1] bcast_S50000x1_S50000x40_0_1 (broadcastInDim S50000x1 ![0] bcast_S50000_S50000x1_0
        (maximumf (broadcastInDim S50000 ![] bcast_S_S50000 (constant S_ .f32 0xFF800000#32))
          (Host.reduce FloatOps.maximumf z (constant S_ .f32 0xFF800000#32) reducesTo_S50000x40_S50000_d1 h_S_))))))
        (constant S_ .f32 0x00000000#32) reducesTo_S50000x40_S50000_d1 h_S_))))

end Spellings

/-! ## The three stretches, read (at any float values: nothing here depends on them) -/

section Stretches
variable {F : FTy → Type} [FloatOps F] (W : Valuation τ sig (Elt F))

open Cert.ReferenceIdeal.Graph in
theorem A_v1 : after opsA W (Proc.devRef .tc main_v1) = srcOf (F := F) (W (Proc.devRef .tc main_arg1)) := by
  after_results; rfl
open Cert.ReferenceIdeal.Graph in
theorem A_v3 : after opsA W (Proc.devRef .tc main_v3) = dstOf (F := F) (W (Proc.devRef .tc main_arg1)) := by
  after_results; rfl
open Cert.ReferenceIdeal.Graph in
set_option maxHeartbeats 4000000 in
theorem A_v29 : after opsA W (Proc.devRef .tc main_v29)
    = hostLayer128 (aggr (F := F) (W (Proc.devRef .tc main_arg0)) (srcOf (F := F) (W (Proc.devRef .tc main_arg1))) (dstOf (F := F) (W (Proc.devRef .tc main_arg1))))
        (W (Proc.devRef .tc main_arg0)) (dmax (F := F) (dstOf (F := F) (W (Proc.devRef .tc main_arg1))))
        (W (Proc.devRef .tc main_arg2)) (W (Proc.devRef .tc main_arg3)) (W (Proc.devRef .tc main_arg4)) := by
  after_results_simp <;> (try simp only [TRef.ofBuf, TRef.toBuf, cast_eq]) <;> rfl
theorem A_arg5 : after opsA W (Proc.devRef .tc main_arg5) = W (Proc.devRef .tc main_arg5) := by
  after_results
theorem A_arg6 : after opsA W (Proc.devRef .tc main_arg6) = W (Proc.devRef .tc main_arg6) := by
  after_results
theorem A_arg7 : after opsA W (Proc.devRef .tc main_arg7) = W (Proc.devRef .tc main_arg7) := by
  after_results

open Cert.ReferenceIdeal.Graph in
set_option maxHeartbeats 4000000 in
theorem B_v55 : after opsB W (Proc.devRef .tc main_v55)
    = hostLayer40 (aggr (F := F) (W (Proc.devRef .tc main_v29)) (W (Proc.devRef .tc main_v1)) (W (Proc.devRef .tc main_v3)))
        (W (Proc.devRef .tc main_v29)) (dmax (F := F) (W (Proc.devRef .tc main_v3)))
        (W (Proc.devRef .tc main_arg5)) (W (Proc.devRef .tc main_arg6)) (W (Proc.devRef .tc main_arg7)) := by
  after_results_simp <;> (try simp only [TRef.ofBuf, TRef.toBuf, cast_eq]) <;> rfl

/-! In the closing function, which the program prints as a call, every value passes through its buffer's type and back.
    Inside the stretch those two moves cancel; the argument comes in and the result goes out through one move each. -/

/-- Contents moved to a typed reference's buffer type and back are the contents. -/
theorem ofBuf_toBuf {T : BufTy} (x : TRef sig T) (v : T.Contents (Elt F)) : x.ofBuf (x.toBuf v) = v := by
  obtain ⟨r, rfl, h2, h3⟩ := x
  rfl

theorem in_v55 : (TRef.of (T := ⟨S50000x40, .f32⟩) main_v55).ofBuf (W (Proc.devRef .tc main_v55)) = W (Proc.devRef .tc main_v55) := rfl
theorem out_v56 (v : (⟨S50000x40, .f32⟩ : BufTy).Contents (Elt F)) : (TRef.of (T := ⟨S50000x40, .f32⟩) main_v56).toBuf v = v := rfl

set_option maxHeartbeats 4000000 in
theorem C_v56 : after opsC W (Proc.devRef .tc main_v56) = hostLogSoftmax (W (Proc.devRef .tc main_v55)) := by
  after_results_simp
  simp only [ofBuf_toBuf]
  rw [out_v56]
  simp only [in_v55]
  rfl

end Stretches

/-! ## The host's spellings are the network's -/

open Cert.KernelIdeal.Graph

/-- The host's first layer is the layer with the sums scaled by the reciprocal column. -/
theorem hostLayer128_eq (a x : FVec Ideal S50000x128 .f32) (dst : IVec S800000 32) (wl wr : FVec Ideal S128x128 .f32) (b : FVec Ideal S128 .f32) :
    hostLayer128 a x (dmax (F := Ideal) dst) wl wr b = Cert.LibScaledMean.layer (N := 50000) (K := 128) (D := 128) a x (recip (F := Ideal) dst) wl wr b := by
  funext i
  obtain ⟨n, j, rfl⟩ : ∃ (n : Fin 50000) (j : Fin 128), i = ix2 n j := ⟨i 0, i 1, eq_ix2 i⟩
  rw [Cert.LibScaledMean.layer_ix2, Cert.NetSpec.recip_apply]
  exact Cert.LibScaledMean.host_layer_apply (M := 50000) (K := 128) (N := 128) a x (dmax (F := Ideal) dst) wl wr b _ Ideal.ofBits_one_f32 _ _ _ _ _
    (Cert.NetSpec.dmax_ne_zero dst) n j

/-- The host's second layer likewise. -/
theorem hostLayer40_eq (a x : FVec Ideal S50000x128 .f32) (dst : IVec S800000 32) (wl wr : FVec Ideal S128x40 .f32) (b : FVec Ideal S40 .f32) :
    hostLayer40 a x (dmax (F := Ideal) dst) wl wr b = Cert.LibScaledMean.layer (N := 50000) (K := 128) (D := 40) a x (recip (F := Ideal) dst) wl wr b := by
  funext i
  obtain ⟨n, j, rfl⟩ : ∃ (n : Fin 50000) (j : Fin 40), i = ix2 n j := ⟨i 0, i 1, eq_ix2 i⟩
  rw [Cert.LibScaledMean.layer_ix2, Cert.NetSpec.recip_apply]
  exact Cert.LibScaledMean.host_layer_apply (M := 50000) (K := 128) (N := 40) a x (dmax (F := Ideal) dst) wl wr b _ Ideal.ofBits_one_f32 _ _ _ _ _
    (Cert.NetSpec.dmax_ne_zero dst) n j

/-- The host's closing function is the row-wise logarithm of the softmax. -/
theorem hostLogSoftmax_eq (z : FVec Ideal S50000x40 .f32) :
    hostLogSoftmax z = fun i => logSoftmaxRow (fun c' : Fin 40 => z (ix2 (i 0) c')) (i 1) := by
  funext i
  obtain ⟨n, j, rfl⟩ : ∃ (n : Fin 50000) (j : Fin 40), i = ix2 n j := ⟨i 0, i 1, eq_ix2 i⟩
  exact Cert.LibLogSoftmaxForms.host_logSoftmax_apply (M := 50000) (N := 40) z reducesTo_S50000x40_S50000_d1 (by decide) h_S_ _ _ _ n j

/-! ## The result -/

variable (m : (ℓ : Loc nD τ sig) → Buf (Elt Ideal) ℓ)

/-- The result buffer after all 87 operations is the network of the arguments. -/
theorem result_eq (c : Dev nD) :
    after ops (launchContents m c) (Proc.devRef .tc main_v56)
      = Cert.NetSpec.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [ops_split, StableHlo.after_append, StableHlo.after_append, C_v56, B_v55, A_v29, A_v1, A_v3, A_arg5, A_arg6, A_arg7]
  simp only [Cert.ReferenceIdeal.Graph.aggr_eq, Cert.ReferenceIdeal.Graph.dmax_eq, Cert.ReferenceIdeal.Graph.srcOf_eq, Cert.ReferenceIdeal.Graph.dstOf_eq]
  rw [hostLayer128_eq, hostLayer40_eq, hostLogSoftmax_eq]
  rfl

/-- The run of the idealized reference program, read: the result at the network of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v56)
        = Cert.NetSpec.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq m c), (h c).2⟩) (Cert.ReferenceIdeal.ValueP.run (F := Ideal) m ρ)

end Cert.ReferenceIdeal.Net

end
-- ==== Proof.lean ====
/-
  Two-layer neighbour-averaging graph network with a row-wise logarithm of a softmax: the kernel program against its
  plain reference, over the extended reals.

  Both programs gather the source rows of the 800000 edges, add them into the destination rows, count the edges into every
  node and take that count no smaller than one; both do it twice, for the features and for the first layer's output, with
  the same host operations. The kernel program then runs each layer as one grid of 25 blocks of 2000 nodes: the sums times
  the reciprocal of the count, two matrix products into zero accumulators (the narrowing of their operands to a shorter
  float format is the identity on the extended reals), the bias, the maximum with zero, and after the second layer the
  logarithm of the softmax along each row. The reference divides the sums by the count and uses whole-array products.

  The two agree entry by entry: a / d = a · d⁻¹ and 1 / d = 1 · d⁻¹ whenever d ≠ 0, and the count is at least one; a
  matrix unit's product into a zero accumulator and the host's product are the same sum; the two spellings of the
  logarithm of the softmax are the same function of a row (LibScaledMeanLayer.lean and LibLogSoftmaxForms.lean). No finiteness of the inputs is
  used. The idealization rewrote nothing, so it is preserved trivially. The frames of the two kernel programs are the
  generated ones; the reference's frame is its run with the result dropped.
-/
import proofs.«170260_j24215025615234_1_alg».proof.Defs
import proofs.«170260_j24215025615234_1_alg».proof.Proof.Gen.Kernel
import proofs.«170260_j24215025615234_1_alg».proof.Proof.Gen.Kernel.Frame
import proofs.«170260_j24215025615234_1_alg».proof.Proof.Gen.KernelIdeal
import proofs.«170260_j24215025615234_1_alg».proof.Proof.Gen.KernelIdeal.Frame
import proofs.«170260_j24215025615234_1_alg».proof.Proof.Gen.ReferenceIdeal
import proofs.«170260_j24215025615234_1_alg».proof.Proof.Gen.Pre_finite_inputs
import proofs.«170260_j24215025615234_1_alg».proof.Proof.KernelValue
import proofs.«170260_j24215025615234_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its read run with the result dropped. -/
theorem frame_referenceIdeal : Cert.frame_ReferenceIdeal := fun m ρ _ =>
  (θ_run Cert.ReferenceIdeal.defs _ _).mono (fun _ h c => (h c).2) (Cert.ReferenceIdeal.Net.run m ρ)

/-- The idealization rewrote no operation. -/
theorem preserves : Cert.preserves_Kernel_KernelIdeal := trivial

/-- Both idealized programs end with the network of NetSpec.lean of their arguments; the arguments agree. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Net.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
